-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16384 : Shape := ⟨2, ![128, 16384]⟩
abbrev S32x31 : Shape := ⟨2, ![32, 31]⟩
abbrev S128 : Shape := ⟨1, ![128]⟩
abbrev S_ : Shape := ⟨0, ![]⟩

class Facts : Prop where
  bcast_S_S128x16384 : S_.BroadcastsInDim S128x16384 (![] : Fin 0 → Fin S128x16384.rank)
  reducesTo_S128x16384_S_d0_1 : S128x16384.ReducesTo [0, 1] S_
  h_S_ : 0 < S_.numel
  bcast_S_S32x31 : S_.BroadcastsInDim S32x31 (![] : Fin 0 → Fin S32x31.rank)
  reducesTo_S32x31_S_d0_1 : S32x31.ReducesTo [0, 1] S_

variable [Facts]

def fn {F : FTy → Type} [FloatOps F] (main_arg0 : FVec F S128x16384 .f32) (main_arg1 : FVec F S128x16384 .f32) (main_arg2 : FVec F S32x31 .f32) (main_arg3 : IVec S128 32) : IVec S_ 1 :=
  let main_v0 : FVec F S128x16384 .f32 := Host.absf main_arg0
  let main_cst : FVec F S_ .f32 := constant S_ .f32 0x7F800000#32
  let main_v1 : FVec F S128x16384 .f32 := broadcastInDim S128x16384 ![] bcast_S_S128x16384 main_cst
  let main_v2 : IVec S128x16384 1 := cmpf .olt main_v0 main_v1
  let main_c : IVec S_ 1 := constantI S_ 1 1#1
  let main_v3 : IVec S_ 1 := (fun x v => Host.reduce IntOp.andi x v reducesTo_S128x16384_S_d0_1 h_S_) main_v2 main_c
  let main_v4 : FVec F S128x16384 .f32 := Host.absf main_arg1
  let main_cst_0 : FVec F S_ .f32 := constant S_ .f32 0x7F800000#32
  let main_v5 : FVec F S128x16384 .f32 := broadcastInDim S128x16384 ![] bcast_S_S128x16384 main_cst_0
  let main_v6 : IVec S128x16384 1 := cmpf .olt main_v4 main_v5
  let main_c_1 : IVec S_ 1 := constantI S_ 1 1#1
  let main_v7 : IVec S_ 1 := (fun x v => Host.reduce IntOp.andi x v reducesTo_S128x16384_S_d0_1 h_S_) main_v6 main_c_1
  let main_v8 : IVec S_ 1 := andi main_v3 main_v7
  let main_v9 : FVec F S32x31 .f32 := Host.absf main_arg2
  let main_cst_2 : FVec F S_ .f32 := constant S_ .f32 0x7F800000#32
  let main_v10 : FVec F S32x31 .f32 := broadcastInDim S32x31 ![] bcast_S_S32x31 main_cst_2
  let main_v11 : IVec S32x31 1 := cmpf .olt main_v9 main_v10
  let main_c_3 : IVec S_ 1 := constantI S_ 1 1#1
  let main_v12 : IVec S_ 1 := (fun x v => Host.reduce IntOp.andi x v reducesTo_S32x31_S_d0_1 h_S_) main_v11 main_c_3
  let main_v13 : IVec S_ 1 := andi main_v8 main_v12
  main_v13
-- ==== Kernel.lean ====
abbrev S128x16384 : Shape := ⟨2, ![128, 16384]⟩
abbrev S32x31 : Shape := ⟨2, ![32, 31]⟩
abbrev S128 : Shape := ⟨1, ![128]⟩
abbrev S_ : Shape := ⟨0, ![]⟩
abbrev S128x16414 : Shape := ⟨2, ![128, 16414]⟩
abbrev S128x31 : Shape := ⟨2, ![128, 31]⟩
abbrev S64x16384 : Shape := ⟨2, ![64, 16384]⟩
abbrev S64x16414 : Shape := ⟨2, ![64, 16414]⟩
abbrev S64x31 : Shape := ⟨2, ![64, 31]⟩
abbrev S64 : Shape := ⟨1, ![64]⟩
abbrev S64x1 : Shape := ⟨2, ![64, 1]⟩
abbrev S128x1 : Shape := ⟨2, ![128, 1]⟩

abbrev nBuf : Space → Nat
  | .hbm => 38
  | .vmem => 6
  | .smem => 0
  | _ => 0

abbrev bufTy : (tb : Table) → Fin (tcTables nBuf tb) → BufTy
  | .hbm, ⟨0, _⟩ => ⟨S128x16384, .f32⟩
  | .hbm, ⟨1, _⟩ => ⟨S128x16384, .f32⟩
  | .hbm, ⟨2, _⟩ => ⟨S32x31, .f32⟩
  | .hbm, ⟨3, _⟩ => ⟨S128, .i32⟩
  | .hbm, ⟨4, _⟩ => ⟨S_, .i32⟩
  | .hbm, ⟨5, _⟩ => ⟨S_, .f32⟩
  | .hbm, ⟨6, _⟩ => ⟨S128x16414, .f32⟩
  | .hbm, ⟨7, _⟩ => ⟨S128x31, .f32⟩
  | .hbm, ⟨8, _⟩ => ⟨S_, .i32⟩
  | .hbm, ⟨9, _⟩ => ⟨S128, .i32⟩
  | .hbm, ⟨10, _⟩ => ⟨S128, .i1⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S128x1, .i32⟩
  | .hbm, ⟨16, _⟩ => ⟨S128x31, .f32⟩
  | .hbm, ⟨17, _⟩ => ⟨S_, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S128x1, .f32⟩
  | .hbm, ⟨23, _⟩ => ⟨S128x31, .f32⟩
  | .hbm, ⟨24, _⟩ => ⟨S128x31, .f32⟩
  | .hbm, ⟨25, _⟩ => ⟨S128x31, .f32⟩
  | .hbm, ⟨26, _⟩ => ⟨S_, .f32⟩
  | .hbm, ⟨27, _⟩ => ⟨S128, .f32⟩
  | .hbm, ⟨28, _⟩ => ⟨S128x1, .f32⟩
  | .hbm, ⟨29, _⟩ => ⟨S128x31, .f32⟩
  | .hbm, ⟨30, _⟩ => ⟨S128x31, .f32⟩
  | .hbm, ⟨31, _⟩ => ⟨S128x31, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S64x16384, .f32⟩
  | .local _ .vmem, ⟨1, _⟩ => ⟨S64x16384, .f32⟩
  | .local _ .vmem, ⟨2, _⟩ => ⟨S64x16414, .f32⟩
  | .local _ .vmem, ⟨3, _⟩ => ⟨S64x16414, .f32⟩
  | .local _ .vmem, ⟨4, _⟩ => ⟨S64x31, .f32⟩
  | .local _ .vmem, ⟨5, _⟩ => ⟨S64x31, .f32⟩
  | _, _ => ⟨S128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16414 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x31 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S128x16384_S128x16414_000_15150 : S128x16384.Pads (![0, 15] : Fin 2 → Nat) ![0, 15] ![0, 0] S128x16414
  h_S_ : 0 < S_.numel
  inb_S64x16384_S64x16384_0_0 : ∀ a, (![0, 0] : Fin 2 → Nat) a + S64x16384.size a ≤ S64x16384.size a
  h_S64x16384 : 0 < S64x16384.numel
  inb_S64x16414_S64x16414_0_0 : ∀ a, (![0, 0] : Fin 2 → Nat) a + S64x16414.size a ≤ S64x16414.size a
  h_S64x16414 : 0 < S64x16414.numel
  shapeCasts_S64x16414_S64x16414 : S64x16414.ShapeCasts S64x16414
  slices_S64x16414_o0_0_S64x16384 : S64x16414.Slices ![0, 0] S64x16384
  reduces_S64x16384_S64 : S64x16384.Reduces [1] S64
  shapeCasts_S64_S64x1 : S64.ShapeCasts S64x1
  slices_S64x16414_o0_1_S64x16384 : S64x16414.Slices ![0, 1] S64x16384
  slices_S64x16414_o0_2_S64x16384 : S64x16414.Slices ![0, 2] S64x16384
  slices_S64x16414_o0_3_S64x16384 : S64x16414.Slices ![0, 3] S64x16384
  slices_S64x16414_o0_4_S64x16384 : S64x16414.Slices ![0, 4] S64x16384
  slices_S64x16414_o0_5_S64x16384 : S64x16414.Slices ![0, 5] S64x16384
  slices_S64x16414_o0_6_S64x16384 : S64x16414.Slices ![0, 6] S64x16384
  slices_S64x16414_o0_7_S64x16384 : S64x16414.Slices ![0, 7] S64x16384
  slices_S64x16414_o0_8_S64x16384 : S64x16414.Slices ![0, 8] S64x16384
  slices_S64x16414_o0_9_S64x16384 : S64x16414.Slices ![0, 9] S64x16384
  slices_S64x16414_o0_10_S64x16384 : S64x16414.Slices ![0, 10] S64x16384
  slices_S64x16414_o0_11_S64x16384 : S64x16414.Slices ![0, 11] S64x16384
  slices_S64x16414_o0_12_S64x16384 : S64x16414.Slices ![0, 12] S64x16384
  slices_S64x16414_o0_13_S64x16384 : S64x16414.Slices ![0, 13] S64x16384
  slices_S64x16414_o0_14_S64x16384 : S64x16414.Slices ![0, 14] S64x16384
  slices_S64x16414_o0_15_S64x16384 : S64x16414.Slices ![0, 15] S64x16384
  slices_S64x16414_o0_16_S64x16384 : S64x16414.Slices ![0, 16] S64x16384
  slices_S64x16414_o0_17_S64x16384 : S64x16414.Slices ![0, 17] S64x16384
  slices_S64x16414_o0_18_S64x16384 : S64x16414.Slices ![0, 18] S64x16384
  slices_S64x16414_o0_19_S64x16384 : S64x16414.Slices ![0, 19] S64x16384
  slices_S64x16414_o0_20_S64x16384 : S64x16414.Slices ![0, 20] S64x16384
  slices_S64x16414_o0_21_S64x16384 : S64x16414.Slices ![0, 21] S64x16384
  slices_S64x16414_o0_22_S64x16384 : S64x16414.Slices ![0, 22] S64x16384
  slices_S64x16414_o0_23_S64x16384 : S64x16414.Slices ![0, 23] S64x16384
  slices_S64x16414_o0_24_S64x16384 : S64x16414.Slices ![0, 24] S64x16384
  slices_S64x16414_o0_25_S64x16384 : S64x16414.Slices ![0, 25] S64x16384
  slices_S64x16414_o0_26_S64x16384 : S64x16414.Slices ![0, 26] S64x16384
  slices_S64x16414_o0_27_S64x16384 : S64x16414.Slices ![0, 27] S64x16384
  slices_S64x16414_o0_28_S64x16384 : S64x16414.Slices ![0, 28] S64x16384
  slices_S64x16414_o0_29_S64x16384 : S64x16414.Slices ![0, 29] S64x16384
  slices_S64x16414_o0_30_S64x16384 : S64x16414.Slices ![0, 30] S64x16384
  concatenates_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x31_d1 : Shape.Concatenates [S64x1, S64x1, S64x1, S64x1, S64x1, S64x1, S64x1, S64x1, S64x1, S64x1, S64x1, S64x1, S64x1, S64x1, S64x1, S64x1, S64x1, S64x1, S64x1, S64x1, S64x1, S64x1, S64x1, S64x1, S64x1, S64x1, S64x1, S64x1, S64x1, S64x1, S64x1] S64x31 1
  inb_S64x31_S64x31_0_0 : ∀ a, (![0, 0] : Fin 2 → Nat) a + S64x31.size a ≤ S64x31.size a
  h_S64x31 : 0 < S64x31.numel
  bcast_S_S128 : S_.BroadcastsInDim S128 (![] : Fin 0 → Fin S128.rank)
  bcast_S128_S128x1_0 : S128.BroadcastsInDim S128x1 (![0] : Fin 1 → Fin S128x1.rank)
  reducesTo_S128x31_S128_d1 : S128x31.ReducesTo [1] S128
  bcast_S128x1_S128x31_0_1 : S128x1.BroadcastsInDim S128x31 (![0, 1] : Fin 2 → Fin S128x31.rank)
  reducesTo_S128_S_d0 : S128.ReducesTo [0] S_
  gather_S32x31_S128x1_S128x31_1_0_n_n_0_1_131_wf : GatherDims.WF S32x31 S128x1 S128x31 [1] [0] [] [0] [] 1 ![1, 31]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S128x16384.size a
  hwx0_0 : ∀ i : grid0.Coords, EltTy.bits .f32 = 32 ∨ (Rect.block (s := S128x16384) S64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16414.size a ≤ S128x16414.size a
  hwx0_1 : ∀ i : grid0.Coords, EltTy.bits .f32 = 32 ∨ (Rect.block (s := S128x16414) S64x16414.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x31.size a ≤ S128x31.size a
  hwx0_2 : ∀ i : grid0.Coords, EltTy.bits .f32 = 32 ∨ (Rect.block (s := S128x31) S64x31.size (cc0_transform_2 i) (hinb0_2 i)).WholeWords (EltTy.packing .f32)

variable [Facts₀]

def gather_S32x31_S128x1_S128x31_1_0_n_n_0_1_131 : GatherDims S32x31 S128x1 S128x31 where
  offsetDims := [1]
  collapsedSliceDims := [0]
  operandBatchingDims := []
  startIndicesBatchingDims := []
  startIndexMap := [0]
  indexVectorDim := 1
  sliceSizes := ![1, 31]
  wf := gather_S32x31_S128x1_S128x31_1_0_n_n_0_1_131_wf

abbrev win0_0 : Pipeline.Window sig grid0 :=
  Pipeline.Window.ofSpec (Memref.whole main_arg0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x16414.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x31.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x16384 : Shape := ⟨2, ![128, 16384]⟩
abbrev S32x31 : Shape := ⟨2, ![32, 31]⟩
abbrev S128 : Shape := ⟨1, ![128]⟩
abbrev S_ : Shape := ⟨0, ![]⟩
abbrev S128x16414 : Shape := ⟨2, ![128, 16414]⟩
abbrev S31 : Shape := ⟨1, ![31]⟩
abbrev S31x1 : Shape := ⟨2, ![31, 1]⟩
abbrev S16384 : Shape := ⟨1, ![16384]⟩
abbrev S1x16384 : Shape := ⟨2, ![1, 16384]⟩
abbrev S31x16384 : Shape := ⟨2, ![31, 16384]⟩
abbrev S31x16384x1 : Shape := ⟨3, ![31, 16384, 1]⟩
abbrev S128x31x16384 : Shape := ⟨3, ![128, 31, 16384]⟩
abbrev S128x1x16384 : Shape := ⟨3, ![128, 1, 16384]⟩
abbrev S128x31 : Shape := ⟨2, ![128, 31]⟩
abbrev S128x1 : Shape := ⟨2, ![128, 1]⟩

abbrev nBuf : Space → Nat
  | .hbm => 62
  | .vmem => 0
  | .smem => 0
  | _ => 0

abbrev bufTy : (tb : Table) → Fin (tcTables nBuf tb) → BufTy
  | .hbm, ⟨0, _⟩ => ⟨S128x16384, .f32⟩
  | .hbm, ⟨1, _⟩ => ⟨S128x16384, .f32⟩
  | .hbm, ⟨2, _⟩ => ⟨S32x31, .f32⟩
  | .hbm, ⟨3, _⟩ => ⟨S128, .i32⟩
  | .hbm, ⟨4, _⟩ => ⟨S_, .i32⟩
  | .hbm, ⟨5, _⟩ => ⟨S_, .f32⟩
  | .hbm, ⟨6, _⟩ => ⟨S128x16414, .f32⟩
  | .hbm, ⟨7, _⟩ => ⟨S31, .i32⟩
  | .hbm, ⟨8, _⟩ => ⟨S31x1, .i32⟩
  | .hbm, ⟨9, _⟩ => ⟨S16384, .i32⟩
  | .hbm, ⟨10, _⟩ => ⟨S1x16384, .i32⟩
  | .hbm, ⟨11, _⟩ => ⟨S31x16384, .i32⟩
  | .hbm, ⟨12, _⟩ => ⟨S31x16384, .i32⟩
  | .hbm, ⟨13, _⟩ => ⟨S31x16384, .i32⟩
  | .hbm, ⟨14, _⟩ => ⟨S_, .i32⟩
  | .hbm, ⟨15, _⟩ => ⟨S31x16384, .i32⟩
  | .hbm, ⟨16, _⟩ => ⟨S31x16384, .i1⟩
  | .hbm, ⟨17, _⟩ => ⟨S_, .i32⟩
  | .hbm, ⟨18, _⟩ => ⟨S31x16384, .i32⟩
  | .hbm, ⟨19, _⟩ => ⟨S31x16384, .i32⟩
  | .hbm, ⟨20, _⟩ => ⟨S31x16384, .i32⟩
  | .hbm, ⟨21, _⟩ => ⟨S31x16384x1, .i32⟩
  | .hbm, ⟨22, _⟩ => ⟨S128x31x16384, .f32⟩
  | .hbm, ⟨23, _⟩ => ⟨S128x1x16384, .f32⟩
  | .hbm, ⟨24, _⟩ => ⟨S128x31x16384, .f32⟩
  | .hbm, ⟨25, _⟩ => ⟨S128x31x16384, .f32⟩
  | .hbm, ⟨26, _⟩ => ⟨S128x31x16384, .f32⟩
  | .hbm, ⟨27, _⟩ => ⟨S_, .f32⟩
  | .hbm, ⟨28, _⟩ => ⟨S128x31, .f32⟩
  | .hbm, ⟨29, _⟩ => ⟨S_, .f32⟩
  | .hbm, ⟨30, _⟩ => ⟨S128x31, .f32⟩
  | .hbm, ⟨31, _⟩ => ⟨S128x31, .f32⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S_, .i32⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S128x1, .i32⟩
  | .hbm, ⟨40, _⟩ => ⟨S128x31, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128x1, .f32⟩
  | .hbm, ⟨47, _⟩ => ⟨S128x31, .f32⟩
  | .hbm, ⟨48, _⟩ => ⟨S128x31, .f32⟩
  | .hbm, ⟨49, _⟩ => ⟨S128x31, .f32⟩
  | .hbm, ⟨50, _⟩ => ⟨S_, .f32⟩
  | .hbm, ⟨51, _⟩ => ⟨S128, .f32⟩
  | .hbm, ⟨52, _⟩ => ⟨S128x1, .f32⟩
  | .hbm, ⟨53, _⟩ => ⟨S128x31, .f32⟩
  | .hbm, ⟨54, _⟩ => ⟨S128x31, .f32⟩
  | .hbm, ⟨55, _⟩ => ⟨S128x31, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  pads_S128x16384_S128x16414_000_15150 : S128x16384.Pads (![0, 15] : Fin 2 → Nat) ![0, 15] ![0, 0] S128x16414
  h_S_ : 0 < S_.numel
  bcast_S31_S31x1_0 : S31.BroadcastsInDim S31x1 (![0] : Fin 1 → Fin S31x1.rank)
  bcast_S16384_S1x16384_1 : S16384.BroadcastsInDim S1x16384 (![1] : Fin 1 → Fin S1x16384.rank)
  bcast_S31x1_S31x16384_0_1 : S31x1.BroadcastsInDim S31x16384 (![0, 1] : Fin 2 → Fin S31x16384.rank)
  bcast_S1x16384_S31x16384_0_1 : S1x16384.BroadcastsInDim S31x16384 (![0, 1] : Fin 2 → Fin S31x16384.rank)
  bcast_S_S31x16384 : S_.BroadcastsInDim S31x16384 (![] : Fin 0 → Fin S31x16384.rank)
  bcast_S31x16384_S31x16384x1_0_1 : S31x16384.BroadcastsInDim S31x16384x1 (![0, 1] : Fin 2 → Fin S31x16384x1.rank)
  bcast_S128x16384_S128x1x16384_0_2 : S128x16384.BroadcastsInDim S128x1x16384 (![0, 2] : Fin 2 → Fin S128x1x16384.rank)
  bcast_S128x1x16384_S128x31x16384_0_1_2 : S128x1x16384.BroadcastsInDim S128x31x16384 (![0, 1, 2] : Fin 3 → Fin S128x31x16384.rank)
  reducesTo_S128x31x16384_S128x31_d2 : S128x31x16384.ReducesTo [2] S128x31
  bcast_S_S128x31 : S_.BroadcastsInDim S128x31 (![] : Fin 0 → Fin S128x31.rank)
  bcast_S_S128 : S_.BroadcastsInDim S128 (![] : Fin 0 → Fin S128.rank)
  bcast_S128_S128x1_0 : S128.BroadcastsInDim S128x1 (![0] : Fin 1 → Fin S128x1.rank)
  reducesTo_S128x31_S128_d1 : S128x31.ReducesTo [1] S128
  bcast_S128x1_S128x31_0_1 : S128x1.BroadcastsInDim S128x31 (![0, 1] : Fin 2 → Fin S128x31.rank)
  reducesTo_S128_S_d0 : S128.ReducesTo [0] S_
  gather_S128x16414_S31x16384x1_S128x31x16384_0_1_n_n_1_2_1281_wf : GatherDims.WF S128x16414 S31x16384x1 S128x31x16384 [0] [1] [] [1] [] 2 ![128, 1]
  gather_S32x31_S128x1_S128x31_1_0_n_n_0_1_131_wf : GatherDims.WF S32x31 S128x1 S128x31 [1] [0] [] [0] [] 1 ![1, 31]

variable [Facts₀]

def gather_S128x16414_S31x16384x1_S128x31x16384_0_1_n_n_1_2_1281 : GatherDims S128x16414 S31x16384x1 S128x31x16384 where
  offsetDims := [0]
  collapsedSliceDims := [1]
  operandBatchingDims := []
  startIndicesBatchingDims := []
  startIndexMap := [1]
  indexVectorDim := 2
  sliceSizes := ![128, 1]
  wf := gather_S128x16414_S31x16384x1_S128x31x16384_0_1_n_n_1_2_1281_wf
def gather_S32x31_S128x1_S128x31_1_0_n_n_0_1_131 : GatherDims S32x31 S128x1 S128x31 where
  offsetDims := [1]
  collapsedSliceDims := [0]
  operandBatchingDims := []
  startIndicesBatchingDims := []
  startIndexMap := [0]
  indexVectorDim := 1
  sliceSizes := ![1, 31]
  wf := gather_S32x31_S128x1_S128x31_1_0_n_n_0_1_131_wf

class Facts : Prop extends Facts₀ where

variable [Facts]
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.SlidingMse.lean ====
/-
  The quantity both programs compute before their common mixture: for a row `r` of predictions `p` (16384 entries)
  and the same row of a padded signal `q` (16414 entries), and for each of the 31 shifts `s`, the mean over `t` of the
  squared difference between `p[r, t]` and `q[r, s + t]` — the sum of the 16384 squares divided by 16384.
  It is stated for any number of rows, since row `r` of the result depends on row `r` of the two arrays only:
  that is what lets the rows be cut into blocks.

  Then the same quantity as a kernel spells one column of it: the padded rows cut from column `o` on, subtracted
  from the predictions, squared, summed along the lanes, the row sums made a column and divided by the broadcast
  count. Read at row `r` that column is the mean above at shift `o`.
-/
import Idealize.ShloMosaic.PureOps.Ideal.Laws
import Idealize.ShloMosaic.Lib.ValueIdx
import Idealize.ShloMosaic.Lib.ValueLayout
import proofs.«142099_j1151051236044_1_alg».proof.Proof.LibRowOps

noncomputable section

open scoped BigOperators

namespace Cert.SlidingMse

open Idealize.ShloMosaic Idealize.ShloMosaic.ValueIdx

variable {R : ℕ}

/-- Column `s + t` of the padded signal: shift `s` read at time `t`. -/
def shiftCol (s : Fin 31) (t : Fin 16384) : Fin 16414 := ⟨s.val + t.val, by have := s.isLt; have := t.isLt; omega⟩

/-- The mean squared difference of row `r` at shift `s`; `n` is the count the sum is divided by. -/
def mseAt (n : EReal) (p : (⟨2, ![R, 16384]⟩ : Shape).Idx → EReal) (q : (⟨2, ![R, 16414]⟩ : Shape).Idx → EReal)
    (r : Fin R) (s : Fin 31) : EReal :=
  Ideal.div (∑ t : Fin 16384, (p (ix2 r t) - q (ix2 r (shiftCol s t))) * (p (ix2 r t) - q (ix2 r (shiftCol s t)))) n

/-- All of them: an `R × 31` array, entry `(r, s)` the mean squared difference of row `r` at shift `s`. -/
def slidingMse (n : EReal) (p : (⟨2, ![R, 16384]⟩ : Shape).Idx → EReal) (q : (⟨2, ![R, 16414]⟩ : Shape).Idx → EReal) :
    (⟨2, ![R, 31]⟩ : Shape).Idx → EReal :=
  fun j => mseAt n p q ⟨(j 0).val, idx2_lt0 j⟩ ⟨(j 1).val, idx2_lt1 j⟩

theorem slidingMse_ix2 (n : EReal) (p : (⟨2, ![R, 16384]⟩ : Shape).Idx → EReal) (q : (⟨2, ![R, 16414]⟩ : Shape).Idx → EReal)
    (r : Fin R) (s : Fin 31) : slidingMse n p q (ix2 r s) = mseAt n p q r s := rfl

/-- One column as a kernel computes it: cut, subtract, square, sum along the lanes, make the sums a column, divide
    by the broadcast count. -/
def column (o : ℕ) (c : Ideal .f32) (x0 : FVec Ideal ⟨2, ![R, 16384]⟩ .f32) (x1 : FVec Ideal ⟨2, ![R, 16414]⟩ .f32)
    (hs : (⟨2, ![R, 16414]⟩ : Shape).Slices ![0, o] ⟨2, ![R, 16384]⟩)
    (hr : (⟨2, ![R, 16384]⟩ : Shape).Reduces [(1 : Fin 2)] ⟨1, ![R]⟩) (hφ : FKind.Formats .f32)
    (hacc : (0x00000000#32 : BitVec 32) = FKind.add.neutral .f32 hφ)
    (hc : (⟨1, ![R]⟩ : Shape).ShapeCasts ⟨2, ![R, 1]⟩) : FVec Ideal ⟨2, ![R, 1]⟩ .f32 :=
  divf (shapeCast ⟨2, ![R, 1]⟩
      (multiReduction .add [(1 : Fin 2)] ⟨1, ![R]⟩
        (mulf (subf x0 (extractStridedSlice ⟨2, ![R, 16384]⟩ ![0, o] x1 hs))
          (subf x0 (extractStridedSlice ⟨2, ![R, 16384]⟩ ![0, o] x1 hs)))
        0x00000000#32 hr hφ hacc) hc)
    (broadcast ⟨2, ![R, 1]⟩ c)

/-- That column at row `r` is the mean squared difference of row `r` at the shift the cut starts from. -/
theorem column_apply (s : Fin 31) (c : Ideal .f32) (x0 : FVec Ideal ⟨2, ![R, 16384]⟩ .f32)
    (x1 : FVec Ideal ⟨2, ![R, 16414]⟩ .f32)
    (hs : (⟨2, ![R, 16414]⟩ : Shape).Slices ![0, s.val] ⟨2, ![R, 16384]⟩)
    (hr : (⟨2, ![R, 16384]⟩ : Shape).Reduces [(1 : Fin 2)] ⟨1, ![R]⟩) (hφ : FKind.Formats .f32)
    (hacc : (0x00000000#32 : BitVec 32) = FKind.add.neutral .f32 hφ)
    (hc : (⟨1, ![R]⟩ : Shape).ShapeCasts ⟨2, ![R, 1]⟩) (r : Fin R) (u : Fin 1) :
    column s.val c x0 x1 hs hr hφ hacc hc (ix2 r u) = mseAt c x0 x1 r s := by
  unfold column mseAt
  show Ideal.div (shapeCast ⟨2, ![R, 1]⟩ _ hc (ix2 r u)) c = _
  rw [Cert.RowOps.shapeCast_a_a1_apply, Cert.RowOps.rowSum_apply]
  refine congrArg (fun z => Ideal.div z c) (Finset.sum_congr rfl fun t _ => ?_)
  show (x0 (ix2 r t) - extractStridedSlice ⟨2, ![R, 16384]⟩ ![0, s.val] x1 hs (ix2 r t))
      * (x0 (ix2 r t) - extractStridedSlice ⟨2, ![R, 16384]⟩ ![0, s.val] x1 hs (ix2 r t)) = _
  rw [slice2_axis1_apply s.val x1 hs r t (shiftCol s t) rfl]

/-- Rows cut into blocks of 64: if block arrays `b0`, `b1` hold rows `64 k …` of `A0`, `A1`, then the mean of block row
    `r` is the mean of array row `64 k + r`, at every shift. -/
theorem mseAt_of_rows {M : ℕ} (n : EReal) (A0 : (⟨2, ![M, 16384]⟩ : Shape).Idx → EReal)
    (A1 : (⟨2, ![M, 16414]⟩ : Shape).Idx → EReal) (b0 : (⟨2, ![R, 16384]⟩ : Shape).Idx → EReal)
    (b1 : (⟨2, ![R, 16414]⟩ : Shape).Idx → EReal) (r : Fin R) (r' : Fin M)
    (h0 : ∀ t : Fin 16384, b0 (ix2 r t) = A0 (ix2 r' t)) (h1 : ∀ u : Fin 16414, b1 (ix2 r u) = A1 (ix2 r' u))
    (s : Fin 31) : mseAt n b0 b1 r s = mseAt n A0 A1 r' s := by
  unfold mseAt
  simp only [h0, h1]

end Cert.SlidingMse

end
-- ==== Proof.KernelBlock.lean ====
/-
  What the kernel body leaves in its output block. The body stores one 64 × 31 value: the concatenation, along the
  columns, of 31 columns of 64 entries, column `s` being the padded block cut from column `s` on, subtracted from the
  prediction block, squared, summed along the lanes and divided by the count 16384. So entry `(r, s)` of the block is
  the mean squared difference of row `r` at shift `s`, of the two input blocks: the block-sized instance of the
  specification.
-/
import proofs.«142099_j1151051236044_1_alg».proof.Proof.Gen.KernelIdeal.Frame
import proofs.«142099_j1151051236044_1_alg».proof.Proof.SlidingMse
import Idealize.ShloMosaic.Lib.Pipeline.Value

set_option maxRecDepth 16384

noncomputable section

open scoped BigOperators

namespace Cert.KernelIdeal.Block

open Cert.KernelIdeal Cert.KernelIdeal.Gen Idealize.ShloMosaic Idealize.ShloMosaic.ValueIdx Cert.SlidingMse

theorem hz : (![0, 0] : Fin 2 → Nat) = fun _ => 0 := funext fun a => by fin_cases a <;> rfl

/-- The count the sums are divided by, as the kernel writes it: the float 16384. -/
abbrev count : Ideal .f32 := Scalar.ofBits (F := Ideal) .f32 0x46800000#32

/-- The body first re-casts the padded block to its own shape: nothing changes. -/
theorem recast (x1 : Vec Ideal S64x16414 .f32) : k0_pay8 (F := Ideal) x1 = x1 := by
  unfold k0_pay8
  exact shapeCast_self _ _

/-- A cut of 16384 columns from column `n < 31` on fits in the 16414 columns of the padded block. -/
theorem cut_fits (n : Fin 31) : S64x16414.Slices ![0, n.val] S64x16384 :=
  ⟨rfl, fun a => match a with
    | ⟨0, _⟩ => by show 0 + 64 ≤ 64; omega
    | ⟨1, _⟩ => by show n.val + 16384 ≤ 16414; have := n.isLt; omega⟩

/-- Column `n` of the body's result. -/
def col (x0 : Vec Ideal S64x16384 .f32) (x1 : Vec Ideal S64x16414 .f32) (n : Fin 31) : S64x1.Idx → Ideal .f32 :=
  column n.val count x0 (k0_pay8 (F := Ideal) x1) (cut_fits n) reduces_S64x16384_S64 (.inl rfl) rfl shapeCasts_S64_S64x1

/-- THE BLOCK: the body's one store, over the two input blocks, is their sliding mean squared difference. -/
theorem block_eq (x0 : Vec Ideal S64x16384 .f32) (x1 : Vec Ideal S64x16414 .f32) :
    out0_2 (F := Ideal) x0 x1 = slidingMse count x0 x1 := by
  unfold out0_2
  rw [View.canon_unit_zero hz]
  simp only [View.ld_unit_zero (S := S64x16384) hz, View.ld_unit_zero (S := S64x16414) hz]
  funext j
  obtain ⟨r, s, rfl⟩ : ∃ (r : Fin 64) (s : Fin 31), j = ix2 r s := ⟨_, _, eq_ix2 j⟩
  have e : mseAt count x0 x1 r s = mseAt count x0 (k0_pay8 (F := Ideal) x1) r s := by rw [recast]
  rw [slidingMse_ix2, e]
  refine Eq.trans ?_ (column_apply s count x0 (k0_pay8 (F := Ideal) x1) (cut_fits s) reduces_S64x16384_S64 (.inl rfl) rfl
    shapeCasts_S64_S64x1 r 0)
  unfold k0_pay7
  exact concatenate_ofFn_unit_apply (t := S64x31) (s₁ := S64x1) (1 : Fin 2) (col x0 x1) _ rfl rfl (ix2 r s) s rfl
    (ix2 r (0 : Fin 1)) (fun b hb => match b with
      | ⟨0, _⟩ => rfl
      | ⟨1, _⟩ => absurd rfl hb)

end Cert.KernelIdeal.Block

end
-- ==== Proof.KernelArray.lean ====
/-
  From blocks to the array. The grid has two points; at point `t` the prediction window holds rows 64 t … 64 t + 63 of
  the predictions (all 16384 columns), the padded window the same rows of the padded signal (all 16414 columns), and
  the output window the same rows of the 128 × 31 result. Row `r` of a block's sliding mean squared difference reads
  row `r` of the two input blocks only, so what point `t` writes back is rows 64 t … of the sliding mean squared
  difference of the WHOLE arrays; the two blocks cover the 128 rows, so the result array ends holding exactly that.
-/
import proofs.«142099_j1151051236044_1_alg».proof.Proof.KernelBlock

set_option maxRecDepth 16384

noncomputable section

open scoped BigOperators

namespace Cert.KernelIdeal.Whole

open Cert.KernelIdeal Cert.KernelIdeal.Gen Cert.KernelIdeal.Block Idealize.ShloMosaic Idealize.ShloMosaic.ValueIdx
open Cert.SlidingMse Idealize.SL.Sem
open Idealize.ShloMosaic.Pipeline (Dat)

variable (m : (ℓ : Loc nD τ sig) → Buf (Elt Ideal) ℓ)

/-- The index maps over the grid: all three windows move together down the rows and none moves along the columns. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 1 :=
  (by decide +kernel : ∀ t : Fin grid0.N, _)

/-- Each of the two row blocks is some point's. -/
theorem idx_onto : ∀ q : Fin 2, ∃ t : Fin cfg0.N, win0_2.index t = ![q.val, 0] :=
  (by decide +kernel : ∀ q : Fin 2, ∃ t : Fin grid0.N, win0_2.index t = ![q.val, 0])

/-- The result array the region should leave: the sliding mean squared difference of the arrays it finds. -/
abbrev target (c : Dev nD) : S128x31.Idx → EReal :=
  slidingMse (R := 128) count (V m c main_arg0) (V m c main_v0)

/-- WHAT POINT `t` WRITES BACK is block `t` of the target. -/
theorem flushed_eq (c : Dev nD) (t : Fin cfg0.N) :
    (dats m 0 c).flushed 2 t = ((cfg0.win 2).blk t).view.read (Elt Ideal) (target m c) := by
  show (cfg0.win 2).cut (grid0.coords t) ((dats m 0 c).after 2 t) = _
  rw [after0_2, block_eq]
  obtain ⟨e0, e1, e2, e3, e4, e5⟩ := idx_facts t
  funext j
  obtain ⟨r, s, rfl⟩ : ∃ (r : Fin 64) (s : Fin 31), j = ix2 r s := ⟨_, _, eq_ix2 j⟩
  have hrow : win0_2.index t (0 : Fin 2) * 64 + r.val < 128 := by have := r.isLt; omega
  have hemb : ((cfg0.win 2).blk t).view.emb (ix2 r s) = ix2 (⟨win0_2.index t (0 : Fin 2) * 64 + r.val, hrow⟩ : Fin 128) s := by
    funext a; apply Fin.ext
    match a with
    | ⟨0, _⟩ => show win0_2.index t (0 : Fin 2) * 64 + 1 * r.val = win0_2.index t (0 : Fin 2) * 64 + r.val; omega
    | ⟨1, _⟩ => show win0_2.index t (1 : Fin 2) * 31 + 1 * s.val = s.val; omega
  show slidingMse count (iblk m c 0 t) (iblk m c 1 t) (ix2 r s) = target m c (((cfg0.win 2).blk t).view.emb (ix2 r s))
  rw [hemb, slidingMse_ix2]
  show _ = mseAt count (V m c main_arg0) (V m c main_v0) ⟨win0_2.index t (0 : Fin 2) * 64 + r.val, hrow⟩ s
  refine mseAt_of_rows count (V m c main_arg0) (V m c main_v0) (iblk m c 0 t) (iblk m c 1 t) r _ (fun u => ?_) (fun u => ?_) s
  · show V m c main_arg0 (((cfg0.win 0).blk t).view.emb (ix2 r u)) = _
    refine congrArg (V m c main_arg0) ?_
    funext a; apply Fin.ext
    match a with
    | ⟨0, _⟩ => show win0_0.index t (0 : Fin 2) * 64 + 1 * r.val = win0_2.index t (0 : Fin 2) * 64 + r.val; omega
    | ⟨1, _⟩ => show win0_0.index t (1 : Fin 2) * 16384 + 1 * u.val = u.val; omega
  · show V m c main_v0 (((cfg0.win 1).blk t).view.emb (ix2 r u)) = _
    refine congrArg (V m c main_v0) ?_
    funext a; apply Fin.ext
    match a with
    | ⟨0, _⟩ => show win0_1.index t (0 : Fin 2) * 64 + 1 * r.val = win0_2.index t (0 : Fin 2) * 64 + r.val; omega
    | ⟨1, _⟩ => show win0_1.index t (1 : Fin 2) * 16414 + 1 * u.val = u.val; omega

/-- An index of the result array is in point `t`'s block iff each coordinate is in the block's range on its axis. -/
theorem mem_blk (t : Fin cfg0.N) (i : S128x31.Idx) :
    i ∈ ((cfg0.win 2).blk t).view.set ↔ ∀ a : Fin 2, win0_2.index t a * S64x31.size a ≤ (i a).val ∧ (i a).val < win0_2.index t a * S64x31.size a + S64x31.size a := by
  show i ∈ ((View.whole main_v1).slice (win0_2.rect t)).set ↔ _
  rw [View.set_slice_whole, Rect.mem_set_unit]
  exact Iff.rfl

/-- The two blocks cover the 128 rows: row `i` is in the block of the point whose block index is `i / 64`. -/
theorem cover (i : S128x31.Idx) : ∃ t : Fin cfg0.N, (cfg0.win 2).flush t = true ∧ i ∈ ((cfg0.win 2).blk t).view.set := by
  have hi0 : (i 0).val < 128 := (i 0).isLt
  have hi1 : (i 1).val < 31 := (i 1).isLt
  obtain ⟨t, ht⟩ := idx_onto ⟨(i 0).val / 64, by omega⟩
  have q0 : win0_2.index t (0 : Fin 2) = (i 0).val / 64 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 31 ≤ (i 1).val ∧ (i 1).val < win0_2.index t (1 : Fin 2) * 31 + 31; omega

/-- THE RESULT ARRAY after the region: the target. -/
theorem final (c : Dev nD) : (dats m 0 c).arrAt 2 cfg0.N = target m c :=
  (dats m 0 c).arrAt_eq_of_cover 2 (target m c) (fun t _ => flushed_eq m c t) cover

end Cert.KernelIdeal.Whole

end
-- ==== Proof.Mixture.lean ====
/-
  The mixture both programs end with, written once. From the 128 × 31 array `x` of mean squared differences, the
  32 × 31 table `θ` of logits and the 128 participant numbers `pid`: each participant number is wrapped the way jax
  wraps an index (a negative one has 32 added), row `pid[b]` of `θ` is taken (clamped into the table) for each `b`, each
  such row is turned into weights by a softmax (the row's maximum subtracted, exponentials, divided by their sum),
  `x` is multiplied by the weights, summed along each row, the 128 row sums are summed and divided by 128.
  Both programs spell exactly this sequence of host operations; the shape facts and the gather's dimension numbers each
  program states for itself are taken here as arguments, so that the two instances are one function.
-/
import Idealize.ShloMosaic.PureOps.Ideal

noncomputable section

namespace Cert.SlidingMse

open Idealize.ShloMosaic

abbrev T0 : Shape := ⟨0, ![]⟩
abbrev T128 : Shape := ⟨1, ![128]⟩
abbrev T128x1 : Shape := ⟨2, ![128, 1]⟩
abbrev T128x31 : Shape := ⟨2, ![128, 31]⟩
abbrev T32x31 : Shape := ⟨2, ![32, 31]⟩

/-- The shape facts the mixture's operations cite. -/
structure MixFacts : Prop where
  b0 : T0.BroadcastsInDim T128 (![] : Fin 0 → Fin T128.rank)
  b1 : T128.BroadcastsInDim T128x1 (![0] : Fin 1 → Fin T128x1.rank)
  r1 : T128x31.ReducesTo [1] T128
  b2 : T128x1.BroadcastsInDim T128x31 (![0, 1] : Fin 2 → Fin T128x31.rank)
  r0 : T128.ReducesTo [0] T0
  h0 : 0 < T0.numel

variable {F : FTy → Type} [FloatOps F]

/-- Row `pid[b]` of the table for each `b`, the participant number wrapped as jax wraps an index. -/
def tableRows (f : MixFacts) (g : GatherDims T32x31 T128x1 T128x31) (θ : FVec F T32x31 .f32) (pid : IVec T128 32) :
    FVec F T128x31 .f32 :=
  Host.gather g θ
    (broadcastInDim T128x1 ![0] f.b1
      (select (cmpi .slt pid (broadcastInDim T128 ![] f.b0 (constantI T0 32 0#32)))
        (addi pid (broadcastInDim T128 ![] f.b0 (constantI T0 32 32#32))) pid))

/-- The rows' exponentials after the row maximum is subtracted. -/
def shiftedExp (f : MixFacts) (y : FVec F T128x31 .f32) : FVec F T128x31 .f32 :=
  Host.exp (subf y
    (broadcastInDim T128x31 ![0, 1] f.b2
      (broadcastInDim T128x1 ![0] f.b1
        (maximumf (broadcastInDim T128 ![] f.b0 (constant (F := F) T0 .f32 0xFF800000#32))
          (Host.reduce FloatOps.maximumf y (constant (F := F) T0 .f32 0xFF800000#32) f.r1 f.h0)))))

/-- The softmax weights of each row. -/
def weights (f : MixFacts) (y : FVec F T128x31 .f32) : FVec F T128x31 .f32 :=
  Host.divf (shiftedExp f y)
    (broadcastInDim T128x31 ![0, 1] f.b2
      (broadcastInDim T128x1 ![0] f.b1
        (Host.reduceAdd (shiftedExp f y) (constant (F := F) T0 .f32 0x00000000#32) f.r1 f.h0)))

/-- THE MIXTURE: the mean over the 128 rows of the weighted row sums. -/
def mixture (f : MixFacts) (g : GatherDims T32x31 T128x1 T128x31) (x : FVec F T128x31 .f32) (θ : FVec F T32x31 .f32)
    (pid : IVec T128 32) : FVec F T0 .f32 :=
  Host.divf
    (Host.reduceAdd
      (Host.reduceAdd (mulf x (weights f (tableRows f g θ pid))) (constant (F := F) T0 .f32 0x00000000#32) f.r1 f.h0)
      (constant (F := F) T0 .f32 0x00000000#32) f.r0 f.h0)
    (constant (F := F) T0 .f32 0x43000000#32)

end Cert.SlidingMse

end
-- ==== Proof.KernelResult.lean ====
/-
  The kernel program's result. Before the region @main pads the signal; the region leaves the sliding mean squared
  differences of the predictions and the padded signal in its result array; after the region @main runs the mixture's
  host operations on that array, the table and the participant numbers. So the program's result is the mixture of the
  specification.
-/
import proofs.«142099_j1151051236044_1_alg».proof.Proof.KernelArray
import proofs.«142099_j1151051236044_1_alg».proof.Proof.Mixture
import Idealize.ShloMosaic.Lib.StableHlo.Run

set_option maxRecDepth 16384

noncomputable section

namespace Cert.KernelIdeal.Final

open Cert.KernelIdeal Cert.KernelIdeal.Gen Cert.KernelIdeal.Block Cert.KernelIdeal.Whole Idealize.ShloMosaic
open Idealize.ShloMosaic.TcCoe Idealize.ShloMosaic.ValueIdx Cert.SlidingMse Idealize.SL.Sem Idealize.ShloMosaic.StableHlo

variable (m : (ℓ : Loc nD τ sig) → Buf (Elt Ideal) ℓ) (ρ : Dev nD → PrngReg)

/-- The shape facts of the mixture, as the kernel program states them. -/
theorem mixFacts : MixFacts :=
  ⟨bcast_S_S128, bcast_S128_S128x1_0, reducesTo_S128x31_S128_d1, bcast_S128x1_S128x31_0_1, reducesTo_S128_S_d0, h_S_⟩

/-- The signal padded with 15 zeros on each side of every row, as @main pads it before the region. -/
def padded (a1 : S128x16384.Idx → EReal) : S128x16414.Idx → EReal :=
  pad S128x16414 ![0, 15] ![0, 15] ![0, 0] a1 (sitofp (F := Ideal) .f32 (constantI S_ 32 0#32))
    pads_S128x16384_S128x16414_000_15150 h_S_

/-- The region finds the padded signal in its second window's array. -/
theorem V_padded (c : Dev nD) :
    (V m c main_v0 : S128x16414.Idx → EReal) = padded (m ((c : Thread nD τ).loc main_arg1)) := by
  dsimp only [Gen.V, Gen.V0]
  simp only [Gen.hostOps0, Gen.hostOps0_1, List.flatten_cons, List.flatten_nil, List.append_nil, List.cons_append,
    List.nil_append]
  after_results
  rfl

/-- What the region leaves in its result array, over the program's arguments. -/
abbrev means (c : Dev nD) : S128x31.Idx → EReal :=
  slidingMse (R := 128) count (m ((c : Thread nD τ).loc main_arg0)) (padded (m ((c : Thread nD τ).loc main_arg1)))

theorem final_means (c : Dev nD) : (dats m 0 c).arrAt 2 cfg0.N = means m c := by
  rw [final]
  show slidingMse (R := 128) count (V m c main_arg0) (V m c main_v0) = _
  rw [V_padded, V_main_arg0]

set_option maxHeartbeats 1000000 in
/-- THE RESULT after the lines that follow the region: the mixture of those means. -/
theorem result_eq (c : Dev nD) :
    Pipeline.afterTail₀ cfgs (dats m) 0 (V0 m) [hostOps1] c main_v23
      = mixture (F := Ideal) mixFacts gather_S32x31_S128x1_S128x31_1_0_n_n_0_1_131 (means m c)
          (m ((c : Thread nD τ).loc main_arg2)) (m ((c : Thread nD τ).loc main_arg3)) := by
  have h1 : Pipeline.withArrays (cfgs 0).spec c (V0 m c) (fun w => (dats m 0 c).arrAt w (cfgs 0).N)
      (Proc.devRef .tc main_v1) = means m c :=
    (Pipeline.withArrays_arr spec0 launch0.win.arr_inj c _ _ 2).trans (final_means m c)
  have h2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  have h3 : Pipeline.withArrays (cfgs 0).spec c (V0 m c) (fun w => (dats m 0 c).arrAt w (cfgs 0).N)
      (Proc.devRef .tc main_arg3) = m ((c : Thread nD τ).loc main_arg3) :=
    (Pipeline.withArrays_of_ne _ c (V0 m c) _ main_arg3
      (by exact (by decide : ∀ w, Pipeline.arrRef spec0 w ≠ main_arg3))).trans (V_main_arg3 m c)
  unfold Pipeline.afterTail₀
  show StableHlo.after hostOps1 _ (Proc.devRef .tc main_v23) = _
  after_results
  rw [h1, h2, h3]
  rfl

/-- THE RUN of the kernel program at the ideal instance: it ends with its result at the mixture of the means and its
    arguments as they were. -/
theorem run : θ_run defs (onTc (τ := τ) (main (F := Ideal))) ⟨m, fun _ => 0, ρ⟩ (fun r => ∀ c : Dev nD,
      r.2.mem ((c.tc : Thread nD τ).loc main_v23)
        = mixture (F := Ideal) mixFacts gather_S32x31_S128x1_S128x31_1_0_n_n_0_1_131 (means m c)
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v23 (Pipeline.mem_restRefs_of main_v23 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefMse.lean ====
/-
  The reference's mean squared differences. The reference builds the 31 × 16384 table of columns `s + t` (two iotas
  added, then jax's wrap of a negative index, which never fires here: `s + t` is at most 16413), takes those columns
  of the padded signal for every row at once (a gather whose one start index names the column, every row kept),
  subtracts from the predictions broadcast over the 31 shifts, squares, sums over `t` from zero and divides by 16384.
  Read at `(b, s)` that is the mean over `t` of the squared difference between the prediction `[b, t]` and the padded
  signal `[b, s + t]`: the specification, on the whole arrays.
-/
import proofs.«142099_j1151051236044_1_alg».proof.Proof.Gen.ReferenceIdeal.Run
import proofs.«142099_j1151051236044_1_alg».proof.Proof.Gen.ReferenceIdeal.Read
import proofs.«142099_j1151051236044_1_alg».proof.Proof.SlidingMse
import Idealize.ShloMosaic.Lib.DynamicIndex

set_option maxRecDepth 16384

noncomputable section

open scoped BigOperators

namespace Cert.ReferenceIdeal.Mse

open Cert.ReferenceIdeal Cert.ReferenceIdeal.Gen Cert.ReferenceIdeal.Read Idealize.ShloMosaic Idealize.ShloMosaic.ValueIdx
open Cert.SlidingMse

/-- THE TABLE OF COLUMNS: entry `(s, t)` is the number `s + t` as a 32-bit word (the wrap of a negative index does not
    fire: the word is not negative read signed). -/
theorem column_word (s : Fin 31) (t : Fin 16384) :
    val_main_v12 (F := Ideal) (ix2 s t) = BitVec.ofNat 32 (s.val + t.val) := by
  rw [val_main_v12_apply, val_main_v9_apply, val_main_v11_apply, val_main_v7_apply, val_main_v8_apply,
    val_main_c_0_apply, val_main_v10_apply, val_main_c_1_apply, val_main_v5_apply, val_main_v6_apply,
    val_main_v2_apply, val_main_v4_apply, val_main_v1_apply, val_main_v3_apply]
  show Scalar.select (IntOp.cmpi .slt (BitVec.ofNat 32 s.val + BitVec.ofNat 32 t.val) 0#32)
      (BitVec.ofNat 32 s.val + BitVec.ofNat 32 t.val + 16414#32) (BitVec.ofNat 32 s.val + BitVec.ofNat 32 t.val) = _
  rw [← BitVec.ofNat_add]
  have hs := s.isLt
  have ht := t.isLt
  have hnn : 0 ≤ (BitVec.ofNat 32 (s.val + t.val)).toInt := by
    rw [toInt_ofNat_of_lt (by omega)]; omega
  have hlt : (BitVec.ofNat 32 (s.val + t.val)).slt 0#32 = false := by
    simp only [BitVec.slt, BitVec.toInt_zero, decide_eq_false_iff_not, Int.not_lt]
    exact hnn
  show (if BitVec.ofBool ((BitVec.ofNat 32 (s.val + t.val)).slt 0#32) = 1 then _ else _) = _
  rw [hlt]
  rfl

/-- The start-index array is that table with a trailing unit axis. -/
theorem start_word (s : Fin 31) (t : Fin 16384) :
    val_main_v13 (F := Ideal) (ix3 s t (0 : Fin 1)) = BitVec.ofNat 32 (s.val + t.val) := by
  rw [val_main_v13_apply]
  exact column_word s t

/-- THE GATHER READ AT `(b, s, t)`: every row kept, the column the start index names, read signed and clamped to the
    last column. -/
theorem gather_apply {α : Type} (x : S128x16414.Idx → α) (idx : IVec S31x16384x1 32) (b : Fin 128) (s : Fin 31) (t : Fin 16384) :
    Host.gather gather_S128x16414_S31x16384x1_S128x31x16384_0_1_n_n_1_2_1281 x idx (ix3 b s t)
      = x (ix2 b ⟨min (idx (ix3 s t (0 : Fin 1))).toInt.toNat 16413, by omega⟩) := by
  unfold Host.gather
  congr 1
  funext a
  refine Fin.ext ?_
  match a with
  | ⟨0, _⟩ =>
    show gather_S128x16414_S31x16384x1_S128x31x16384_0_1_n_n_1_2_1281.start (ix3 b s t) idx 0
        + gather_S128x16414_S31x16384x1_S128x31x16384_0_1_n_n_1_2_1281.batchCoord (ix3 b s t) 0
        + gather_S128x16414_S31x16384x1_S128x31x16384_0_1_n_n_1_2_1281.offCoord (ix3 b s t) 0 = b.val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨1, _⟩ =>
    show gather_S128x16414_S31x16384x1_S128x31x16384_0_1_n_n_1_2_1281.start (ix3 b s t) idx 1
        + gather_S128x16414_S31x16384x1_S128x31x16384_0_1_n_n_1_2_1281.batchCoord (ix3 b s t) 1
        + gather_S128x16414_S31x16384x1_S128x31x16384_0_1_n_n_1_2_1281.offCoord (ix3 b s t) 1
      = min (idx (ix3 s t (0 : Fin 1))).toInt.toNat 16413
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S128x16414_S31x16384x1_S128x31x16384_0_1_n_n_1_2_1281.startIndexMap from
      List.mem_singleton.mpr rfl)]
    have hsi : gather_S128x16414_S31x16384x1_S128x31x16384_0_1_n_n_1_2_1281.siIdx (ix3 b s t)
        ⟨List.idxOf (1 : Fin 2) gather_S128x16414_S31x16384x1_S128x31x16384_0_1_n_n_1_2_1281.startIndexMap,
          List.idxOf_lt_length_iff.2 (List.mem_singleton.mpr rfl)⟩ = ix3 s t (0 : Fin 1) := by
      funext c; refine Fin.ext ?_
      match c with
      | ⟨0, _⟩ => rfl
      | ⟨1, _⟩ => rfl
      | ⟨2, _⟩ => rfl
    rw [hsi]
    rfl

/-- The count the reference divides by, the float 16384. -/
abbrev count : EReal := Ideal.ofBits .f32 0x46800000#32

/-- THE REFERENCE'S MEANS are the specification, of the predictions and the padded signal. -/
theorem mse_eq (a0 a1 : (⟨S128x16384, .f32⟩ : BufTy).Contents (Elt Ideal)) :
    val_main_v21 (F := Ideal) a0 a1 = slidingMse (R := 128) count a0 (val_main_v0 (F := Ideal) a1) := by
  funext j
  obtain ⟨b, s, rfl⟩ : ∃ (b : Fin 128) (s : Fin 31), j = ix2 b s := ⟨_, _, eq_ix2 j⟩
  rw [slidingMse_ix2, val_main_v21_apply, val_main_v19_apply, val_main_v20_apply, val_main_cst_2_apply, val_main_cst_apply]
  unfold mseAt
  show Ideal.div (Ideal.ofBits .f32 0x00000000#32 + _) count = _
  rw [Ideal.ofBits_zero_f32, zero_add]
  refine congrArg (fun z => Ideal.div z count) (Finset.sum_congr rfl fun t _ => ?_)
  have hidx : idx_main_v19 (ix2 b s) t = ix3 b s t := by
    funext a; apply Fin.ext
    match a with
    | ⟨0, _⟩ => rfl
    | ⟨1, _⟩ => rfl
    | ⟨2, _⟩ => rfl
  have hp : val_main_v16 (F := Ideal) a0 (ix3 b s t) = a0 (ix2 b t) := by
    rw [val_main_v16_apply, val_main_v15_apply]
    refine congrArg a0 ?_
    funext a; apply Fin.ext
    match a with
    | ⟨0, _⟩ => rfl
    | ⟨1, _⟩ => rfl
  have hq : val_main_v14 (F := Ideal) a1 (ix3 b s t) = val_main_v0 (F := Ideal) a1 (ix2 b (shiftCol s t)) := by
    unfold val_main_v14
    rw [gather_apply]
    refine congrArg (val_main_v0 (F := Ideal) a1) (congrArg (ix2 b) (Fin.ext ?_))
    have hs := s.isLt
    have ht := t.isLt
    show min (val_main_v13 (F := Ideal) (ix3 s t (0 : Fin 1))).toInt.toNat 16413 = s.val + t.val
    rw [start_word, toInt_ofNat_of_lt (by omega)]
    omega
  rw [hidx, val_main_v18_apply, val_main_v17_apply, hp, hq]
  rfl

end Cert.ReferenceIdeal.Mse

end
-- ==== Proof.RefResult.lean ====
/-
  The reference's result. After its mean squared differences the reference runs the mixture's host operations on
  them, so its result is the mixture of the specification — of the predictions and the padded signal as the reference
  pads it —, the table and the participant numbers.
-/
import proofs.«142099_j1151051236044_1_alg».proof.Proof.RefMse
import proofs.«142099_j1151051236044_1_alg».proof.Proof.Mixture

set_option maxRecDepth 16384

noncomputable section

namespace Cert.ReferenceIdeal.Final

open Cert.ReferenceIdeal Cert.ReferenceIdeal.Gen Cert.ReferenceIdeal.Read Cert.ReferenceIdeal.Mse Idealize.ShloMosaic
open Cert.SlidingMse Idealize.SL.Sem

/-- The shape facts of the mixture, as the reference states them. -/
theorem mixFacts : MixFacts :=
  ⟨bcast_S_S128, bcast_S128_S128x1_0, reducesTo_S128x31_S128_d1, bcast_S128x1_S128x31_0_1, reducesTo_S128_S_d0, h_S_⟩

/-- The reference's operations after its means are the mixture's, one for one. -/
theorem tail_eq (a0 a1 : (⟨S128x16384, .f32⟩ : BufTy).Contents (Elt Ideal)) (a2 : (⟨S32x31, .f32⟩ : BufTy).Contents (Elt Ideal))
    (a3 : (⟨S128, .i32⟩ : BufTy).Contents (Elt Ideal)) :
    val_main_v43 (F := Ideal) a0 a1 a2 a3
      = mixture (F := Ideal) mixFacts gather_S32x31_S128x1_S128x31_1_0_n_n_0_1_131 (val_main_v21 (F := Ideal) a0 a1) a2 a3 :=
  rfl

/-- THE REFERENCE'S RESULT: the mixture of the sliding mean squared differences. -/
theorem result_eq (m : (ℓ : Loc nD τ sig) → Buf (Elt Ideal) ℓ) (c : Dev nD) :
    Cert.ReferenceIdeal.Value.res_main_v43 m c
      = mixture (F := Ideal) mixFacts gather_S32x31_S128x1_S128x31_1_0_n_n_0_1_131
          (slidingMse (R := 128) Mse.count (m ((c.tc : Thread nD τ).loc main_arg0))
            (val_main_v0 (F := Ideal) (m ((c.tc : Thread nD τ).loc main_arg1))))
          (m ((c.tc : Thread nD τ).loc main_arg2)) (m ((c.tc : Thread nD τ).loc main_arg3)) := by
  rw [val_main_v43_eq, tail_eq, mse_eq]

end Cert.ReferenceIdeal.Final

end
-- ==== Proof.lean ====
/- The proof of `Cert.Claim`: the sliding mean squared difference between predictions and a zero-padded signal, mixed by
   a softmax over 31 shifts, computed by a kernel over row blocks against a jnp reference that gathers the shifted
   columns.

   Both programs pad the signal with 15 zeros on each side of every row and then form, for each row `b` and each shift
   `s` of 31, the mean over `t` of `(pred[b, t] − padded[b, s + t])²` (Proof/SlidingMse.lean states it). The kernel takes
   the 31 shifts as static cuts of a row block of the padded signal, sums the squares along the lanes and concatenates
   the 31 columns (Proof/KernelBlock.lean); its two row blocks fill the 128 × 31 result (Proof/KernelArray.lean). The
   reference adds two iotas into the table of columns `s + t`, gathers those columns for all rows at once and sums
   over `t` (Proof/RefMse.lean). The two sums run over the same terms in the same order, so no law of the extended
   reals beyond `0 + x = x` is used and the finiteness precondition is never opened. Both programs then run the same
   host operations — a softmax of the gathered table rows, the weighted row sums, their mean — on that array
   (Proof/Mixture.lean, Proof/KernelResult.lean, Proof/RefResult.lean).

   The three frames are the generated frame runs (the reference's its generated run with the result dropped); the
   idealization rewrote no operation, so `preserves` is `True`. -/
import proofs.«142099_j1151051236044_1_alg».proof.Defs
import proofs.«142099_j1151051236044_1_alg».proof.Proof.Gen.Kernel
import proofs.«142099_j1151051236044_1_alg».proof.Proof.Gen.Kernel.Skeleton
import proofs.«142099_j1151051236044_1_alg».proof.Proof.Gen.Kernel.Launch
import proofs.«142099_j1151051236044_1_alg».proof.Proof.Gen.Kernel.Points
import proofs.«142099_j1151051236044_1_alg».proof.Proof.Gen.Kernel.Frame
import proofs.«142099_j1151051236044_1_alg».proof.Proof.Gen.KernelIdeal
import proofs.«142099_j1151051236044_1_alg».proof.Proof.Gen.KernelIdeal.Skeleton
import proofs.«142099_j1151051236044_1_alg».proof.Proof.Gen.KernelIdeal.Launch
import proofs.«142099_j1151051236044_1_alg».proof.Proof.Gen.KernelIdeal.Points
import proofs.«142099_j1151051236044_1_alg».proof.Proof.Gen.KernelIdeal.Frame
import proofs.«142099_j1151051236044_1_alg».proof.Proof.Gen.ReferenceIdeal
import proofs.«142099_j1151051236044_1_alg».proof.Proof.Gen.ReferenceIdeal.Run
import proofs.«142099_j1151051236044_1_alg».proof.Proof.Gen.ReferenceIdeal.Read
import proofs.«142099_j1151051236044_1_alg».proof.Proof.Gen.Pre_finite_inputs
import proofs.«142099_j1151051236044_1_alg».proof.Proof.KernelResult
import proofs.«142099_j1151051236044_1_alg».proof.Proof.RefResult
import Idealize.ShloMosaic.Adequacy
import Idealize.ShloMosaic.Init

set_option maxRecDepth 16384

noncomputable section

namespace Cert.Proof

open Idealize.ShloMosaic Idealize.ShloMosaic.TcCoe Idealize.SL.Sem Cert.SlidingMse

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The two programs' instances of the mixture of the means are one value: they state the same shape facts and the
    same dimension numbers, divide by the same count and pad by the same operation. -/
theorem same_result (a0 a1 : (⟨2, ![128, 16384]⟩ : Shape).Idx → EReal) (a2 : (⟨2, ![32, 31]⟩ : Shape).Idx → EReal)
    (a3 : IVec ⟨1, ![128]⟩ 32) :
    mixture (F := Ideal) Cert.ReferenceIdeal.Final.mixFacts Cert.ReferenceIdeal.gather_S32x31_S128x1_S128x31_1_0_n_n_0_1_131
        (slidingMse (R := 128) Cert.ReferenceIdeal.Mse.count a0 (Cert.ReferenceIdeal.Read.val_main_v0 (F := Ideal) a1)) a2 a3
      = mixture (F := Ideal) Cert.KernelIdeal.Final.mixFacts Cert.KernelIdeal.gather_S32x31_S128x1_S128x31_1_0_n_n_0_1_131
          (slidingMse (R := 128) Cert.KernelIdeal.Block.count a0 (Cert.KernelIdeal.Final.padded a1)) a2 a3 :=
  rfl

/-- From memories that agree on the arguments both idealized programs end with the mixture of the sliding mean squared
    differences of those arguments. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Final.result_eq, (hagree c).1, (hagree c).2.1, (hagree c).2.2.1, (hagree c).2.2.2]
  exact same_result _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
